-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S128x128 : Shape := ⟨2, ![128, 128]⟩
abbrev S128x1 : Shape := ⟨2, ![128, 1]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_

variable [Facts]

def fn {F : FTy → Type} [FloatOps F] (main_arg0 : FVec F S524288x128 .f32) (main_arg1 : FVec F S128x128 .f32) (main_arg2 : FVec F S128x1 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x1 .f32 := Host.absf main_arg2
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  main_v13
-- ==== Kernel.lean ====
abbrev S524288x128 : Shape := ⟨2, ![524288, 128]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S4096x128 : Shape := ⟨2, ![4096, 128]⟩

abbrev nBuf : Space → Nat
  | .hbm => 7
  | .vmem => 6
  | .smem => 0
  | _ => 0

abbrev bufTy : (tb : Table) → Fin (tcTables nBuf tb) → BufTy
  | .hbm, ⟨0, _⟩ => ⟨S524288x128, .f32⟩
  | .hbm, ⟨1, _⟩ => ⟨S128x128, .f32⟩
  | .hbm, ⟨2, _⟩ => ⟨S128x1, .f32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S524288x128, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S1x128, .f32⟩
  | .local _ .vmem, ⟨4, _⟩ => ⟨S4096x128, .f32⟩
  | .local _ .vmem, ⟨5, _⟩ => ⟨S4096x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x128_S128x128_1_0 : S128x128.Transposes [1, 0] S128x128
  shapeCasts_S128x1_S128 : S128x1.ShapeCasts S128
  bcast_S128_S1x128_1 : S128.BroadcastsInDim S1x128 (![1] : Fin 1 → Fin S1x128.rank)
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S524288x128.size a
  hwx0_0 : ∀ i : grid0.Coords, EltTy.bits .f32 = 32 ∨ (Rect.block (s := S524288x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S524288x128.size a
  hwx0_3 : ∀ i : grid0.Coords, EltTy.bits .f32 = 32 ∨ (Rect.block (s := S524288x128) S4096x128.size (cc0_transform_3 i) (hinb0_3 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288x128 : Shape := ⟨2, ![524288, 128]⟩
abbrev S128x128 : Shape := ⟨2, ![128, 128]⟩
abbrev S128x1 : Shape := ⟨2, ![128, 1]⟩
abbrev S128 : Shape := ⟨1, ![128]⟩
abbrev S1x128 : Shape := ⟨2, ![1, 128]⟩

abbrev nBuf : Space → Nat
  | .hbm => 8
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S128x128, .f32⟩
  | .hbm, ⟨2, _⟩ => ⟨S128x1, .f32⟩
  | .hbm, ⟨3, _⟩ => ⟨S524288x128, .f32⟩
  | .hbm, ⟨4, _⟩ => ⟨S128, .f32⟩
  | .hbm, ⟨5, _⟩ => ⟨S1x128, .f32⟩
  | .hbm, ⟨6, _⟩ => ⟨S524288x128, .f32⟩
  | .hbm, ⟨7, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  shapeCasts_S128x1_S128 : S128x1.ShapeCasts S128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  dot_S524288x128_S128x128_S524288x128_1_1_0_0_n_n_wf : DotDims.WF S524288x128 S128x128 S524288x128 [1] [1] [0] [0] [] []

variable [Facts₀]

def dot_S524288x128_S128x128_S524288x128_1_1_0_0_n_n : DotDims S524288x128 S128x128 S524288x128 where
  lhsContracting := [1]
  rhsContracting := [1]
  lhsNonContracting := [0]
  rhsNonContracting := [0]
  lhsBatch := []
  rhsBatch := []
  wf := dot_S524288x128_S128x128_S524288x128_1_1_0_0_n_n_wf

class Facts : Prop extends Facts₀ where

variable [Facts]
-- ==== Proof.BodyTile.lean ====
/-
  What the kernel body computes on one grid point's blocks, at the ideal values, entry by entry.
  The body loads a 4096-row tile of `x`, the whole 128×128 matrix `Wᵀ` and the one bias row, multiplies the tile
  by `Wᵀ` into a zero accumulator, and adds the bias row to every row of the product. Over the extended reals the two
  narrowings to bf16 are the identity and the matrix product is the plain sum of products, so row `p`, column `q`
  of the stored tile is  (∑ k, tile[p, k] · wt[k, q]) + row[0, q].
-/
import proofs.«136885_j88888643158261_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.BodyTile

open Cert.KernelIdeal Cert.KernelIdeal.Gen Idealize.ShloMosaic Idealize.ShloMosaic.ValueIdx

/-! ## The matrix product's operand indices, axis by axis

The product contracts the tile's column axis with the matrix's row axis: at output entry `(p, q)` and contraction
position `k` the left operand is read at `(p, k)` and the right at `(k, q)`. -/

theorem lhs_row (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_col (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_row (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_col (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The tile times the matrix into the zero accumulator, at entry `(p, q)`: the sum over the 128 shared positions. -/
theorem product_apply (a : FVec Ideal S4096x128 .bf16) (w : FVec Ideal S128x128 .bf16) (p : Fin 4096) (q : Fin 128) :
    matmul (F := Ideal) dot_S4096x128_S128x128_S4096x128_1_0_0_1_n_n none a w (constant S4096x128 .f32 0x00000000#32) (ix2 p q)
      = ∑ k : Fin 128, a (ix2 p k) * w (ix2 k q) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 p q) ((ValueIdx.contrEquiv1 dot_S4096x128_S128x128_S4096x128_1_0_0_1_n_n 128 rfl rfl).symm k) = ix2 p k := funext fun a => Fin.ext (by
    match a with
    | ⟨0, _⟩ => exact lhs_row _ _
    | ⟨1, _⟩ => exact (lhs_col _ _).trans hk)
  have er : dot_S4096x128_S128x128_S4096x128_1_0_0_1_n_n.rhsIdx (ix2 p q) ((ValueIdx.contrEquiv1 dot_S4096x128_S128x128_S4096x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- THE STORED TILE at entry `(p, q)`: the inner product of the tile's row `p` with the matrix's column `q`,
    plus the bias row's entry `q` (the same for every row `p`). -/
theorem tile_apply (x0 : Vec Ideal S4096x128 .f32) (x1 : Vec Ideal S128x128 .f32) (x2 : Vec Ideal S1x128 .f32) (p : Fin 4096) (q : Fin 128) :
    k0_pay1 (F := Ideal) x0 x1 x2 (ix2 p q) = (∑ k : Fin 128, x0 (ix2 p k) * x1 (ix2 k q)) + x2 (ix2 (0 : Fin 1) q) := by
  unfold k0_pay1
  refine (addf_apply _ _ (ix2 p q)).trans ?_
  refine congrArg₂ (· + ·) ?_ ?_
  · refine (product_apply _ _ p q).trans ?_
    refine Finset.sum_congr rfl fun k _ => ?_
    show x0 (ix2 p k) * (shapeCast S128x128 x1 shapeCasts_S128x128_S128x128) (ix2 k q) = _
    rw [shapeCast_self]
  · refine (broadcastTo_1b_ab_apply _ _ p q).trans ?_
    rw [shapeCast_self]

end Cert.KernelIdeal.BodyTile

end
-- ==== Proof.Affine.lean ====
/-
  The one function both programs compute, index by index over the extended reals:
  row `n`, column `o` of the result is the inner product of row `n` of `x` with row `o` of `W`,
  plus entry `o` of the bias column:  out[n, o] = (∑ k, x[n, k] · W[o, k]) + b[o, 0].
  Nothing here mentions a program; the two value legs each show their program ends at this function.
-/
import Idealize.ShloMosaic.PureOps.Ideal
import Idealize.ShloMosaic.Lib.ValueIdx

noncomputable section

open scoped BigOperators

namespace Cert.Affine

open Idealize.ShloMosaic Idealize.ShloMosaic.ValueIdx

/-- The batch of rows: 524288 rows of 128 features (also the result's shape). -/
abbrev Rows : Shape := ⟨2, ![524288, 128]⟩
/-- The square weight matrix, one row per output feature. -/
abbrev Sq : Shape := ⟨2, ![128, 128]⟩
/-- The bias, a column: one entry per output feature. -/
abbrev Col : Shape := ⟨2, ![128, 1]⟩

/-- `x · Wᵀ + bᵀ` at an index: the sum over the 128 input features of `x[n, k] · W[o, k]`, plus `b[o, 0]`. -/
def affine (x : FVec Ideal Rows .f32) (W : FVec Ideal Sq .f32) (b : FVec Ideal Col .f32) : FVec Ideal Rows .f32 :=
  fun i => (∑ k : Fin 128, x (ix2 (i 0) k) * W (ix2 (i 1) k)) + b (ix2 (i 1) (0 : Fin 1))

theorem affine_apply (x : FVec Ideal Rows .f32) (W : FVec Ideal Sq .f32) (b : FVec Ideal Col .f32)
    (n : Fin 524288) (o : Fin 128) :
    affine x W b (ix2 n o) = (∑ k : Fin 128, x (ix2 n k) * W (ix2 o k)) + b (ix2 o (0 : Fin 1)) := rfl

end Cert.Affine

end
-- ==== Proof.KernelAffine.lean ====
/-
  The kernel's result array is the affine map of its arguments.
  The grid has 128 points; point `t` stages rows `4096·t … 4096·t + 4095` of `x` and of the result, and the whole of
  the transposed matrix and of the bias row, which the host computed before the call:  wt[k, o] = W[o, k]  and
  row[0, o] = b[o, 0].  The body's tile (BodyTile) read through those blocks is block `t` of ONE function of the arrays
  the call finds; the 128 blocks tile the result, so the result array is that function; and that function of the
  host-computed arrays is `Cert.Affine.affine` of the arguments.
-/
import proofs.«136885_j88888643158261_1_alg».proof.Proof.Gen.KernelIdeal.Value
import proofs.«136885_j88888643158261_1_alg».proof.Proof.BodyTile
import proofs.«136885_j88888643158261_1_alg».proof.Proof.Affine
import Idealize.ShloMosaic.Lib.StableHlo.Run

set_option maxRecDepth 16384

noncomputable section

open scoped BigOperators

namespace Cert.KernelIdeal.KernelAffine

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the host wrote before the call -/

/-- The call finds the transposed matrix in its second operand. -/
theorem found_wt (c : Dev nD) :
    (V m c main_v0 : S128x128.Idx → EReal) = transpose S128x128 [1, 0] (m ((c : Thread nD τ).loc main_arg1)) transposes_S128x128_S128x128_1_0 := by
  dsimp only [V, hostOps0]; after_results

/-- The call finds the bias column laid out as one row in its third operand. -/
theorem found_row (c : Dev nD) :
    (V m c main_v2 : S1x128.Idx → EReal) = broadcastInDim S1x128 ![1] bcast_S128_S1x128_1 (shapeCast S128 (m ((c : Thread nD τ).loc main_arg2)) shapeCasts_S128x1_S128) := by
  dsimp only [V, hostOps0]; after_results; rfl

/-! ## One function of the arrays the call finds -/

/-- Row `n`, column `o`: the inner product of row `n` of the first array with COLUMN `o` of the second, plus entry `o`
    of the third's one row. -/
def found (X : FVec Ideal S524288x128 .f32) (Wt : FVec Ideal S128x128 .f32) (Br : FVec Ideal S1x128 .f32) : FVec Ideal S524288x128 .f32 :=
  fun i => (∑ k : Fin 128, X (ix2 (i 0) k) * Wt (ix2 k (i 1))) + Br (ix2 (0 : Fin 1) (i 1))

/-- The stored tile's entry `y` is `found` at the array index `i`, whenever the three loaded blocks read, along row
    `y 0`, down column `y 1` and at the bias entry `y 1`, what the arrays hold along row `i 0`, down column `i 1` and at
    entry `i 1`. -/
theorem tile_found (X : FVec Ideal S524288x128 .f32) (Wt : FVec Ideal S128x128 .f32) (Br : FVec Ideal S1x128 .f32)
    (x0 : Vec Ideal S4096x128 .f32) (x1 : Vec Ideal S128x128 .f32) (x2 : Vec Ideal S1x128 .f32)
    (y : S4096x128.Idx) (i : S524288x128.Idx)
    (h0 : ∀ k : Fin 128, x0 (ix2 (y 0) k) = X (ix2 (i 0) k))
    (h1 : ∀ k : Fin 128, x1 (ix2 k (y 1)) = Wt (ix2 k (i 1)))
    (h2 : x2 (ix2 (0 : Fin 1) (y 1)) = Br (ix2 (0 : Fin 1) (i 1))) :
    k0_pay1 (F := Ideal) x0 x1 x2 y = found X Wt Br i := by
  obtain ⟨p, q, rfl⟩ : ∃ (p : Fin 4096) (q : Fin 128), y = ix2 p q := ⟨y 0, y 1, eq_ix2 y⟩
  refine (BodyTile.tile_apply x0 x1 x2 p q).trans ?_
  unfold found
  exact congrArg₂ (· + ·) (Finset.sum_congr rfl fun k _ => congrArg₂ (· * ·) (h0 k) (h1 k)) h2

/-! ## From blocks to the array -/

theorem hz : (![0, 0] : Fin 2 → Nat) = fun _ => 0 := funext fun a => by fin_cases a <;> rfl

/-- The printed index maps over the 128 grid points: the row tile of `x` moves with the result's, at block row `t`;
    the matrix and the bias row stay at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of `found` of the arrays the call finds. -/
theorem flushed_eq (c : Dev nD) (t : Fin cfg0.N) :
    (dats m 0 c).flushed 3 t
      = ((cfg0.win 3).blk t).view.read (Elt Ideal) (found (V m c main_arg0) (V m c main_v0) (V m c main_v2)) := by
  rw [flushed3]
  unfold out0_3
  rw [View.canon_unit_zero hz]
  simp only [View.ld_unit_zero (S := S4096x128) hz, View.ld_unit_zero (S := S128x128) hz, View.ld_unit_zero (S := S1x128) hz]
  obtain ⟨e00, e01, e10, e11, e20, e21, e30, e31⟩ := idx_facts t
  funext j
  refine tile_found (V m c main_arg0) (V m c main_v0) (V m c main_v2) (iblk m c 0 t) (iblk m c 1 t) (iblk m c 2 t) j
    (((cfg0.win 3).blk t).view.emb j) (fun k => ?_) (fun k => ?_) ?_
  · show V m c main_arg0 (((cfg0.win 0).blk t).view.emb (ix2 (j 0) k)) = V m c main_arg0 (ix2 ((((cfg0.win 3).blk t).view.emb j) 0) k)
    refine congrArg (V m c main_arg0) (funext fun a => Fin.ext ?_)
    match a with
    | ⟨0, _⟩ => show win0_0.index t (0 : Fin 2) * 4096 + 1 * (j 0).val = win0_3.index t (0 : Fin 2) * 4096 + 1 * (j 0).val; omega
    | ⟨1, _⟩ => show win0_0.index t (1 : Fin 2) * 128 + 1 * k.val = k.val; omega
  · show V m c main_v0 (((cfg0.win 1).blk t).view.emb (ix2 k (j 1))) = V m c main_v0 (ix2 k ((((cfg0.win 3).blk t).view.emb j) 1))
    refine congrArg (V m c main_v0) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  · show V m c main_v2 (((cfg0.win 2).blk t).view.emb (ix2 (0 : Fin 1) (j 1))) = V m c main_v2 (ix2 (0 : Fin 1) ((((cfg0.win 3).blk t).view.emb j) 1))
    refine congrArg (V m c main_v2) (funext fun a => Fin.ext ?_)
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega

/-- An index of the result is in point `t`'s block iff each coordinate is in the block's range on its axis. -/
theorem mem_blk (t : Fin cfg0.N) (i : S524288x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v3).slice (win0_3.rect t)).set ↔ _
  rw [View.set_slice_whole, Rect.mem_set_unit]
  exact Iff.rfl

/-- The 128 row tiles cover the result: row `r` lies in the block of point `r / 4096`. -/
theorem cover (i : S524288x128.Idx) :
    ∃ t : Fin cfg0.N, (cfg0.win 3).flush t = true ∧ i ∈ ((cfg0.win 3).blk t).view.set := by
  have hi0 : (i 0).val < 524288 := (i 0).isLt
  have hi1 : (i 1).val < 128 := (i 1).isLt
  have hN : (i 0).val / 4096 < cfg0.N := by show (i 0).val / 4096 < grid0.N; rw [N_0]; omega
  refine ⟨⟨(i 0).val / 4096, hN⟩, flush0_3 _, ?_⟩
  obtain ⟨-, -, -, -, -, -, e30, e31⟩ := idx_facts ⟨(i 0).val / 4096, hN⟩
  rw [mem_blk]
  intro a
  match a with
  | ⟨0, _⟩ =>
    show win0_3.index ⟨(i 0).val / 4096, hN⟩ (0 : Fin 2) * 4096 ≤ (i 0).val ∧ (i 0).val < win0_3.index ⟨(i 0).val / 4096, hN⟩ (0 : Fin 2) * 4096 + 4096
    rw [e30]; show (i 0).val / 4096 * 4096 ≤ (i 0).val ∧ (i 0).val < (i 0).val / 4096 * 4096 + 4096; omega
  | ⟨1, _⟩ =>
    show win0_3.index ⟨(i 0).val / 4096, hN⟩ (1 : Fin 2) * 128 ≤ (i 1).val ∧ (i 1).val < win0_3.index ⟨(i 0).val / 4096, hN⟩ (1 : Fin 2) * 128 + 128
    rw [e31]; omega

/-- THE RESULT ARRAY after the run is `found` of the arrays the call finds. -/
theorem final_found (c : Dev nD) :
    (dats m 0 c).arrAt 3 cfg0.N = found (V m c main_arg0) (V m c main_v0) (V m c main_v2) :=
  (dats m 0 c).arrAt_eq_of_cover 3 (found (V m c main_arg0) (V m c main_v0) (V m c main_v2))
    (fun t _ => flushed_eq m c t) cover

/-! ## The found arrays are the host's layouts of the arguments -/

/-- `found` of the transposed matrix and the bias row is the affine map of the matrix and the bias column. -/
theorem found_eq_affine (x : FVec Ideal S524288x128 .f32) (W : FVec Ideal S128x128 .f32) (b : FVec Ideal S128x1 .f32) :
    found x (transpose S128x128 [1, 0] W transposes_S128x128_S128x128_1_0)
        (broadcastInDim S1x128 ![1] bcast_S128_S1x128_1 (shapeCast S128 b shapeCasts_S128x1_S128))
      = Cert.Affine.affine x W b := by
  funext i
  unfold found Cert.Affine.affine
  refine congrArg₂ (· + ·) (Finset.sum_congr rfl fun k _ => congrArg₂ (· * ·) rfl ?_) ?_
  · exact transpose_ix2_apply W transposes_S128x128_S128x128_1_0 k (i 1)
  · refine (broadcastInDim_apply (![1] : Fin 1 → Fin 2) bcast_S128_S1x128_1 _ (ix2 (0 : Fin 1) (i 1)) (ix1 (i 1)) (fun a => match a with
      | ⟨0, _⟩ => by show (i 1).val = if (128 : Nat) = 1 then 0 else (i 1).val; rw [if_neg (by decide)])).trans ?_
    exact shapeCast_apply b shapeCasts_S128x1_S128 (ix1 (i 1)) (ix2 (i 1) (0 : Fin 1))
      (by rewrite [Shape.rowMajor_val_two, Shape.rowMajor_val_one]; show (i 1).val * 1 + 0 = (i 1).val; omega)

/-- THE RESULT ARRAY after the run is the affine map of the three arguments as launched. -/
theorem final (c : Dev nD) :
    (dats m 0 c).arrAt 3 cfg0.N
      = Cert.Affine.affine (m ((c : Thread nD τ).loc main_arg0)) (m ((c : Thread nD τ).loc main_arg1)) (m ((c : Thread nD τ).loc main_arg2)) := by
  rw [final_found, found_wt, found_row, V_main_arg0]
  exact found_eq_affine _ _ _

/-- The kernel's run, read: the result at the affine map of the arguments, the arguments unchanged. -/
theorem run : θ_run defs (onTc (τ := τ) (main (F := Ideal))) ⟨m, fun _ => 0, ρ⟩ fun r => ∀ c : Dev nD,
      r.2.mem ((c : Thread nD τ).loc main_v3)
        = Cert.Affine.affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.KernelAffine

end
-- ==== Proof.RefAffine.lean ====
/-
  The reference's result is the affine map. Its program is one `dot_general` contracting the feature axes of `x` and
  `W` (entry `(n, o)` is ∑ k, x[n, k] · W[o, k]), the bias column reshaped to a vector, broadcast to one row and then
  to every row, and one addition. Read at an index each stage reads its operand at one index; composed, the bias
  term at `(n, o)` is `b[o, 0]`.
-/
import proofs.«136885_j88888643158261_1_alg».proof.Proof.Gen.ReferenceIdeal.Read
import proofs.«136885_j88888643158261_1_alg».proof.Proof.Affine

noncomputable section

open scoped BigOperators

namespace Cert.ReferenceIdeal.RefAffine

open Cert.ReferenceIdeal Cert.ReferenceIdeal.Gen Cert.ReferenceIdeal.Read Idealize.ShloMosaic Idealize.ShloMosaic.ValueIdx

/-- The reference's last stage, as a function of the three arguments, is `Cert.Affine.affine` of them. -/
theorem result_eq (x : FVec Ideal S524288x128 .f32) (W : FVec Ideal S128x128 .f32) (b : FVec Ideal S128x1 .f32) :
    val_main_v4 (F := Ideal) x W b = Cert.Affine.affine x W b := by
  funext i
  have el : ∀ k : Fin 128, lidx_main_v0 i k = ix2 (i 0) k := fun k =>
    funext fun a => Fin.ext (by match a with | ⟨0, _⟩ => rfl | ⟨1, _⟩ => rfl)
  have er : ∀ k : Fin 128, ridx_main_v0 i k = ix2 (i 1) k := fun k =>
    funext fun a => Fin.ext (by match a with | ⟨0, _⟩ => rfl | ⟨1, _⟩ => rfl)
  have eb : idx_main_v1 (idx_main_v2 (idx_main_v3 i)) = ix2 (i 1) (0 : Fin 1) :=
    funext fun a => Fin.ext (by
      match a with
      | ⟨0, _⟩ => show (i 1).val / 1 = (i 1).val; omega
      | ⟨1, _⟩ => rfl)
  rw [val_main_v4_apply, val_main_v0_apply, val_main_v3_apply, val_main_v2_apply, val_main_v1_apply]
  simp only [el, er, eb]
  rfl

end Cert.ReferenceIdeal.RefAffine

end
-- ==== Proof.lean ====
/-
  The kernel — a 4096-row tile of `x` per grid point, multiplied on the matrix unit by the host-transposed `W` (both
  narrowed to bf16) into a zero accumulator, plus the bias laid out as a row — against jnp's
  `einsum('ni,oi->no', x, W) + b[:, 0][None, :]`.
  Over the extended reals a narrowing is the identity and both products are the plain sum of products over the 128
  shared features, so BOTH programs end with the result at ONE function of the three arguments,
      out[n, o] = (∑ k, x[n, k] · W[o, k]) + b[o, 0]        (`Cert.Affine.affine`):
  the kernel by its tile read through the blocks and the 128 tiles covering the result (Proof/BodyTile.lean,
  Proof/KernelAffine.lean), the reference by its five operations read at an index (Proof/RefAffine.lean). The two sums
  run over the same index in the same order, so no law of the extended reals is needed and the inputs' finiteness is
  never used. The idealization rewrote nothing, so `preserves` has nothing to show; the kernels' frames are the
  generated ones, and the reference's frame is its run with the result dropped.
-/
import proofs.«136885_j88888643158261_1_alg».proof.Defs
import proofs.«136885_j88888643158261_1_alg».proof.Proof.Gen.Kernel
import proofs.«136885_j88888643158261_1_alg».proof.Proof.Gen.Kernel.Skeleton
import proofs.«136885_j88888643158261_1_alg».proof.Proof.Gen.Kernel.Launch
import proofs.«136885_j88888643158261_1_alg».proof.Proof.Gen.Kernel.Points
import proofs.«136885_j88888643158261_1_alg».proof.Proof.Gen.Kernel.Frame
import proofs.«136885_j88888643158261_1_alg».proof.Proof.Gen.KernelIdeal
import proofs.«136885_j88888643158261_1_alg».proof.Proof.Gen.KernelIdeal.Skeleton
import proofs.«136885_j88888643158261_1_alg».proof.Proof.Gen.KernelIdeal.Launch
import proofs.«136885_j88888643158261_1_alg».proof.Proof.Gen.KernelIdeal.Points
import proofs.«136885_j88888643158261_1_alg».proof.Proof.Gen.KernelIdeal.Frame
import proofs.«136885_j88888643158261_1_alg».proof.Proof.Gen.ReferenceIdeal
import proofs.«136885_j88888643158261_1_alg».proof.Proof.Gen.Pre_finite_inputs
import proofs.«136885_j88888643158261_1_alg».proof.Proof.Gen.KernelIdeal.Value
import proofs.«136885_j88888643158261_1_alg».proof.Proof.Gen.ReferenceIdeal.Run
import proofs.«136885_j88888643158261_1_alg».proof.Proof.Gen.ReferenceIdeal.Read
import proofs.«136885_j88888643158261_1_alg».proof.Proof.KernelAffine
import proofs.«136885_j88888643158261_1_alg».proof.Proof.RefAffine
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as launched. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is five host operations: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `x`, `W` and `b`, both programs end with the result at the affine map of them. -/
theorem algebraic : Cert.algebraic_KernelIdeal_ReferenceIdeal := by
  intro m ρ m' ρ' _ hagree
  refine ⟨_, Cert.KernelIdeal.KernelAffine.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefAffine.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
